-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384 : Shape := ⟨2, ![16, 16384]⟩
abbrev S256x128 : Shape := ⟨2, ![256, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S16x16384 : S_.BroadcastsInDim S16x16384 (![] : Fin 0 → Fin S16x16384.rank)
  reducesTo_S16x16384_S_d0_1 : S16x16384.ReducesTo [0, 1] S_

variable [Facts]

def fn {F : FTy → Type} [FloatOps F] (main_arg0 : IVec S16x16384 32) (main_arg1 : FVec F S256x128 .f32) : IVec S_ 1 :=
  let main_v0 : FVec F S256x128 .f32 := Host.absf main_arg1
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_c_0 : IVec S_ 32 := constantI S_ 32 0#32
  let main_v4 : IVec S16x16384 32 := broadcastInDim S16x16384 ![] bcast_S_S16x16384 main_c_0
  let main_v5 : IVec S16x16384 1 := cmpi .sge main_arg0 main_v4
  let main_c_1 : IVec S_ 1 := constantI S_ 1 1#1
  let main_v6 : IVec S_ 1 := (fun x v => Host.reduce IntOp.andi x v reducesTo_S16x16384_S_d0_1 h_S_) main_v5 main_c_1
  let main_v7 : IVec S_ 1 := andi main_v3 main_v6
  main_v7
-- ==== Kernel.lean ====
abbrev S16x16384 : Shape := ⟨2, ![16, 16384]⟩
abbrev S256x128 : Shape := ⟨2, ![256, 128]⟩
abbrev S16x2048x8 : Shape := ⟨3, ![16, 2048, 8]⟩
abbrev S8x16x2048 : Shape := ⟨3, ![8, 16, 2048]⟩
abbrev S16x2048x128 : Shape := ⟨3, ![16, 2048, 128]⟩
abbrev S8x16x512 : Shape := ⟨3, ![8, 16, 512]⟩
abbrev S16x512x128 : Shape := ⟨3, ![16, 512, 128]⟩
abbrev S1x1x256 : Shape := ⟨3, ![1, 1, 256]⟩
abbrev S16x512x256 : Shape := ⟨3, ![16, 512, 256]⟩
abbrev S1x16x512 : Shape := ⟨3, ![1, 16, 512]⟩
abbrev S16x512 : Shape := ⟨2, ![16, 512]⟩
abbrev S16x512x1 : Shape := ⟨3, ![16, 512, 1]⟩
abbrev S8192x256 : Shape := ⟨2, ![8192, 256]⟩
abbrev S8192x128 : Shape := ⟨2, ![8192, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x16384, .i32⟩
  | .hbm, ⟨1, _⟩ => ⟨S256x128, .f32⟩
  | .hbm, ⟨2, _⟩ => ⟨S16x2048x8, .i32⟩
  | .hbm, ⟨3, _⟩ => ⟨S8x16x2048, .i32⟩
  | .hbm, ⟨4, _⟩ => ⟨S16x2048x128, .f32⟩
  | .local _ .vmem, ⟨0, _⟩ => ⟨S8x16x512, .i32⟩
  | .local _ .vmem, ⟨1, _⟩ => ⟨S8x16x512, .i32⟩
  | .local _ .vmem, ⟨2, _⟩ => ⟨S256x128, .f32⟩
  | .local _ .vmem, ⟨3, _⟩ => ⟨S16x512x128, .f32⟩
  | .local _ .vmem, ⟨4, _⟩ => ⟨S16x512x128, .f32⟩
  | _, _ => ⟨S16x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x16384_S16x2048x8 : S16x16384.ShapeCasts S16x2048x8
  transposes_S16x2048x8_S8x16x2048_2_0_1 : S16x2048x8.Transposes [2, 0, 1] S8x16x2048
  iota_S1x1x256_d2_w32 : S1x1x256.Iotas .tc 32 [2]
  inb_S8x16x512_S1x16x512_0_0_0 : ∀ a, (![0, 0, 0] : Fin 3 → Nat) a + S1x16x512.size a ≤ S8x16x512.size a
  h_S1x16x512 : 0 < S1x16x512.numel
  shapeCasts_S1x16x512_S16x512 : S1x16x512.ShapeCasts S16x512
  shapeCasts_S16x512_S16x512x1 : S16x512.ShapeCasts S16x512x1
  broadcasts_S16x512x1_S16x512x256 : S16x512x1.Broadcasts S16x512x256
  broadcasts_S1x1x256_S16x512x256 : S1x1x256.Broadcasts S16x512x256
  natLt_1_32 : 1 < 32
  bitsLt_bf16_f32 : FTy.bits .bf16 < FTy.bits .f32
  inb_S8x16x512_S1x16x512_1_0_0 : ∀ a, (![1, 0, 0] : Fin 3 → Nat) a + S1x16x512.size a ≤ S8x16x512.size a
  inb_S8x16x512_S1x16x512_2_0_0 : ∀ a, (![2, 0, 0] : Fin 3 → Nat) a + S1x16x512.size a ≤ S8x16x512.size a
  inb_S8x16x512_S1x16x512_3_0_0 : ∀ a, (![3, 0, 0] : Fin 3 → Nat) a + S1x16x512.size a ≤ S8x16x512.size a
  inb_S8x16x512_S1x16x512_4_0_0 : ∀ a, (![4, 0, 0] : Fin 3 → Nat) a + S1x16x512.size a ≤ S8x16x512.size a
  inb_S8x16x512_S1x16x512_5_0_0 : ∀ a, (![5, 0, 0] : Fin 3 → Nat) a + S1x16x512.size a ≤ S8x16x512.size a
  inb_S8x16x512_S1x16x512_6_0_0 : ∀ a, (![6, 0, 0] : Fin 3 → Nat) a + S1x16x512.size a ≤ S8x16x512.size a
  inb_S8x16x512_S1x16x512_7_0_0 : ∀ a, (![7, 0, 0] : Fin 3 → Nat) a + S1x16x512.size a ≤ S8x16x512.size a
  shapeCasts_S16x512x256_S8192x256 : S16x512x256.ShapeCasts S8192x256
  inb_S256x128_S256x128_0_0 : ∀ a, (![0, 0] : Fin 2 → Nat) a + S256x128.size a ≤ S256x128.size a
  h_S256x128 : 0 < S256x128.numel
  shapeCasts_S8192x128_S16x512x128 : S8192x128.ShapeCasts S16x512x128
  inb_S16x512x128_S16x512x128_0_0_0 : ∀ a, (![0, 0, 0] : Fin 3 → Nat) a + S16x512x128.size a ≤ S16x512x128.size a
  h_S16x512x128 : 0 < S16x512x128.numel
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x512.size a ≤ S8x16x2048.size a
  hwx0_0 : ∀ i : grid0.Coords, EltTy.bits .i32 = 32 ∨ (Rect.block (s := S8x16x2048) S8x16x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x128.size a ≤ S16x2048x128.size a
  hwx0_2 : ∀ i : grid0.Coords, EltTy.bits .f32 = 32 ∨ (Rect.block (s := S16x2048x128) S16x512x128.size (cc0_transform_2 i) (hinb0_2 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_v1) S8x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x16384 : Shape := ⟨2, ![16, 16384]⟩
abbrev S256x128 : Shape := ⟨2, ![256, 128]⟩
abbrev S_ : Shape := ⟨0, ![]⟩
abbrev S16x16384x1 : Shape := ⟨3, ![16, 16384, 1]⟩
abbrev S16x16384x128 : Shape := ⟨3, ![16, 16384, 128]⟩
abbrev S16x2048x8x128 : Shape := ⟨4, ![16, 2048, 8, 128]⟩
abbrev S16x2048x128 : Shape := ⟨3, ![16, 2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S16x16384, .i32⟩
  | .hbm, ⟨1, _⟩ => ⟨S256x128, .f32⟩
  | .hbm, ⟨2, _⟩ => ⟨S_, .i32⟩
  | .hbm, ⟨3, _⟩ => ⟨S16x16384, .i32⟩
  | .hbm, ⟨4, _⟩ => ⟨S16x16384, .i1⟩
  | .hbm, ⟨5, _⟩ => ⟨S_, .i32⟩
  | .hbm, ⟨6, _⟩ => ⟨S16x16384, .i32⟩
  | .hbm, ⟨7, _⟩ => ⟨S16x16384, .i32⟩
  | .hbm, ⟨8, _⟩ => ⟨S16x16384, .i32⟩
  | .hbm, ⟨9, _⟩ => ⟨S16x16384x1, .i32⟩
  | .hbm, ⟨10, _⟩ => ⟨S16x16384x128, .f32⟩
  | .hbm, ⟨11, _⟩ => ⟨S16x2048x8x128, .f32⟩
  | .hbm, ⟨12, _⟩ => ⟨S_, .f32⟩
  | .hbm, ⟨13, _⟩ => ⟨S16x2048x128, .f32⟩
  | .hbm, ⟨14, _⟩ => ⟨S_, .f32⟩
  | .hbm, ⟨15, _⟩ => ⟨S16x2048x128, .f32⟩
  | .hbm, ⟨16, _⟩ => ⟨S16x2048x128, .f32⟩
  | _, _ => ⟨S16x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  shapeCasts_S16x16384x128_S16x2048x8x128 : S16x16384x128.ShapeCasts S16x2048x8x128
  reducesTo_S16x2048x8x128_S16x2048x128_d2 : S16x2048x8x128.ReducesTo [2] S16x2048x128
  h_S_ : 0 < S_.numel
  bcast_S_S16x2048x128 : S_.BroadcastsInDim S16x2048x128 (![] : Fin 0 → Fin S16x2048x128.rank)
  gather_S256x128_S16x16384x1_S16x16384x128_2_0_n_n_0_2_1128_wf : GatherDims.WF S256x128 S16x16384x1 S16x16384x128 [2] [0] [] [0] [] 2 ![1, 128]

variable [Facts₀]

def gather_S256x128_S16x16384x1_S16x16384x128_2_0_n_n_0_2_1128 : GatherDims S256x128 S16x16384x1 S16x16384x128 where
  offsetDims := [2]
  collapsedSliceDims := [0]
  operandBatchingDims := []
  startIndicesBatchingDims := []
  startIndexMap := [0]
  indexVectorDim := 2
  sliceSizes := ![1, 128]
  wf := gather_S256x128_S16x16384x1_S16x16384x128_2_0_n_n_0_2_1128_wf

class Facts : Prop extends Facts₀ where

variable [Facts]
-- ==== Proof.Domain.lean ====
/-
  The precondition read back. It is the conjunction of two `all`s: every entry of the table is finite
  (|e| < +inf), and every token word is non-negative read signed. Each `all` is a reduction by `and` that
  came out 1, so every element it ranged over is 1; an element being 1 says the comparison there holds.
  On the extended reals "|e| < +inf" leaves exactly the real numbers: it fails at both infinities.
-/
import proofs.«419562_j71597104825034_2_alg».proof.Pre_finite_inputs
import proofs.«419562_j71597104825034_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PatchMean

open Idealize.ShloMosaic Idealize.ShloMosaic.ValueIdx Cert.Pre_finite_inputs

instance scalarIdx_subsingleton : Subsingleton S_.Idx := ⟨fun a b => funext fun d => d.elim0⟩

/-- An extended real whose absolute value is below +inf is a real number. -/
theorem real_of_abs_lt_top (e : EReal)
    (h : Ideal.cmp .olt (max e (-e)) (Ideal.ofBits .f32 0x7F800000#32) = 1#1) : ∃ r : ℝ, e = (r : EReal) := by
  have htop : Ideal.ofBits .f32 0x7F800000#32 = ⊤ := by simp [Ideal.ofBits, Ideal.ieee]
  rw [htop] at h
  induction e using EReal.rec with
  | bot => exact absurd h (by simp [Ideal.cmp])
  | top => exact absurd h (by simp [Ideal.cmp])
  | coe r => exact ⟨r, rfl⟩

/-- Under the precondition every table entry is a real number and every token word is non-negative. -/
theorem domain_of_pre (x : IVec S16x16384 32) (be : FVec Ideal S256x128 .f32)
    (h : Cert.Pre_finite_inputs.fn (F := Ideal) x be = fun _ => 1#1) :
    (∀ i, ∃ r : ℝ, be i = (r : EReal)) ∧ (∀ i, 0 ≤ (x i).toInt) := by
  have h0 := congrFun h ix0
  dsimp only [Cert.Pre_finite_inputs.fn] at h0
  obtain ⟨h1, h2⟩ := IntOp.andi_eq_one.1 h0
  constructor
  · intro i
    have hi := Host.reduce_andi_all _ _ _ _ _ h1 i
    exact real_of_abs_lt_top (be i) hi
  · intro i
    have hi := Host.reduce_andi_all _ _ _ _ _ h2 i
    have := IntOp.cmpi_sge.1 hi
    have hz : (0#32 : BitVec 32).toInt = 0 := by decide
    exact hz ▸ this

end Cert.PatchMean

end
-- ==== Proof.Tokens.lean ====
/-
  The mathematics shared by both programs, with no program in sight.

  A token word is read as a row of the 256-row table: signed, and clamped into [0, 255] (`tok`). The kernel never
  looks a row up: for each of the 256 rows it COUNTS how many of a span's eight tokens name that row, and takes the
  count-weighted sum of the rows scaled by 1/8. The reference looks the eight rows up, adds them and divides by 8.
  The law that joins them (`count_dot`): for real rows,
      sum over rows v of (number of j with tok j = v) * (e v * (1/8))  =  (sum over j of e (tok j)) / 8,
  by exchanging the two finite sums; it needs the rows real (a count times an infinity is not a sum of infinities'
  worth of terms when the count is zero), which is where finiteness of the table is used.
-/
import Idealize.ShloMosaic.PureOps.Ideal
import Idealize.ShloMosaic.PureOps.Ideal.Laws
import Idealize.ShloMosaic.Lib.ValueIdx

noncomputable section

open scoped BigOperators

namespace Cert.PatchMean

open Idealize.ShloMosaic

/-- A token word as a row of the table: read signed, clamped into [0, 255]. -/
def tok (w : BitVec 32) : Fin 256 := ⟨min w.toInt.toNat 255, by omega⟩

/-- The token at position `j` of span `s` of sequence `b`: spans are consecutive runs of eight tokens. -/
def spanTok (x : (⟨2, ![16, 16384]⟩ : Shape).Idx → BitVec 32) (b : Fin 16) (s : Fin 2048) (j : Fin 8) : Fin 256 :=
  tok (x (ValueIdx.ix2 b ⟨s.val * 8 + j.val, by have := s.isLt; have := j.isLt; omega⟩))

/-- THE RESULT both programs compute: at (sequence b, span s, column d) the mean over the span's eight tokens of
    column d of each token's row of the table. -/
def spanMean (x : (⟨2, ![16, 16384]⟩ : Shape).Idx → BitVec 32) (be : (⟨2, ![256, 128]⟩ : Shape).Idx → EReal) :
    (⟨3, ![16, 2048, 128]⟩ : Shape).Idx → EReal :=
  fun i => ((0 : EReal) + ∑ j : Fin 8, be (ValueIdx.ix2 (spanTok x (i 0) (i 1) j) (i 2))) * (((1 / 8 : ℝ)) : EReal)

/-- The clip `min 255 (max 0 w)` of a word, read signed, is its token (for every word, negative ones included). -/
theorem clip_toInt (w : BitVec 32) : (IntOp.minsi 255#32 (IntOp.maxsi 0#32 w)).toInt = ((tok w).val : Int) := by
  have h0 : (0#32 : BitVec 32).toInt = 0 := by decide
  have h255 : (255#32 : BitVec 32).toInt = 255 := by decide
  unfold IntOp.minsi IntOp.maxsi tok
  by_cases hw : w.slt 0#32 = true
  · rw [if_pos hw]
    have hlt : w.toInt < 0 := by rw [BitVec.slt_iff_toInt_lt] at hw; omega
    have h2 : ¬ ((255#32 : BitVec 32).slt 0#32 = true) := by decide
    rw [if_neg h2, h0]
    show (0 : Int) = ((min w.toInt.toNat 255 : Nat) : Int)
    omega
  · rw [if_neg hw]
    have hge : 0 ≤ w.toInt := by
      rw [BitVec.slt_iff_toInt_lt] at hw; omega
    by_cases hc : (255#32 : BitVec 32).slt w = true
    · rw [if_pos hc, h255]
      have : 255 < w.toInt := by rw [BitVec.slt_iff_toInt_lt] at hc; omega
      show (255 : Int) = ((min w.toInt.toNat 255 : Nat) : Int)
      omega
    · rw [if_neg hc]
      have : w.toInt ≤ 255 := by rw [BitVec.slt_iff_toInt_lt] at hc; omega
      show w.toInt = ((min w.toInt.toNat 255 : Nat) : Int)
      omega

/-- A row number below 256, as a 32-bit word read signed, is itself. -/
theorem row_toInt (k : Fin 256) : (BitVec.ofNat 32 k.val).toInt = (k.val : Int) := by
  have := k.isLt
  rw [BitVec.toInt_ofNat']
  exact Int.bmod_eq_of_le (by omega) (by omega)

/-- The one-hot entry as the kernel builds it: the equality test of two extended reals, widened to a word and read
    back as a number, is 1 where they are equal and 0 elsewhere. -/
theorem hot_eq (a b : EReal) :
    (((((Ideal.cmp .oeq a b).setWidth 32).toInt : Int) : ℝ) : EReal) = if a = b then 1 else 0 := by
  unfold Ideal.cmp
  by_cases h : a = b
  · simp [h]
  · simp [h]

/-- The one-hot entry of a clipped token word against a row number: 1 exactly at the word's token. -/
theorem hot_tok (w : BitVec 32) (k : Fin 256) :
    (((((Ideal.cmp .oeq ((((IntOp.minsi 255#32 (IntOp.maxsi 0#32 w)).toInt : Int) : ℝ) : EReal)
        ((((BitVec.ofNat 32 k.val).toInt : Int) : ℝ) : EReal)).setWidth 32).toInt : Int) : ℝ) : EReal)
      = if tok w = k then 1 else 0 := by
  rw [hot_eq, clip_toInt, row_toInt]
  have : (((((tok w).val : Int) : ℝ) : EReal) = ((((k.val : Nat) : Int) : ℝ) : EReal)) ↔ tok w = k := by
    rw [EReal.coe_eq_coe_iff]
    constructor
    · intro h; exact Fin.ext (by exact_mod_cast h)
    · intro h; rw [h]
  exact if_congr this rfl rfl

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- THE LAW: the count-weighted sum of the scaled rows is the mean of the rows looked up. `c j` is the token at
    position `j` of the span, `e` one column of the (real) table. The counts are written as the kernel adds them up:
    from zero, one one-hot entry after another. -/
theorem count_dot (e : Fin 256 → ℝ) (c : Fin 8 → Fin 256) :
    (∑ k : Fin 256,
      ((((((((((0 : EReal) + (if c 0 = k then 1 else 0)) + (if c 1 = k then 1 else 0)) + (if c 2 = k then 1 else 0))
        + (if c 3 = k then 1 else 0)) + (if c 4 = k then 1 else 0)) + (if c 5 = k then 1 else 0))
        + (if c 6 = k then 1 else 0)) + (if c 7 = k then 1 else 0))
        * ((e k : EReal) * (((1 / 8 : ℝ)) : EReal))))
      = ((0 : EReal) + ∑ j : Fin 8, (e (c j) : EReal)) * (((1 / 8 : ℝ)) : EReal) := by
  have hI : ∀ (a k : Fin 256), (if a = k then (1 : EReal) else 0) = (((if a = k then (1 : ℝ) else 0) : ℝ) : EReal) := by
    intro a k; split <;> simp
  simp only [hI]
  rw [coe_sum]
  have h0 : (0 : EReal) = ((0 : ℝ) : EReal) := rfl
  simp only [h0, ← EReal.coe_add, ← EReal.coe_mul]
  rw [coe_sum, EReal.coe_eq_coe_iff]
  simp only [zero_add, add_mul, Finset.sum_add_distrib, ite_mul, one_mul, zero_mul, Finset.sum_ite_eq,
    Finset.mem_univ, if_true, Fin.sum_univ_eight]

end Cert.PatchMean

end
-- ==== Proof.LookupMean.lean ====
/-
  The reference's result is the span mean. Its program normalises a negative index by adding 256, gathers the
  rows (the gather reads its start index signed and clamps it into the table), regroups the 16384 tokens of a
  sequence as 2048 spans of 8, sums each span and divides by 8.
  Over non-negative token words the normalisation is the identity, so the gathered row is the word's token
  (`gather_row`: the one stage the generated read lemmas leave out, read here at an index off the gather's own
  dimension numbers); position (s, j) of the regrouped array is token 8 s + j; and dividing by the real 8 is
  multiplying by 1/8 on every extended real.
-/
import proofs.«419562_j71597104825034_2_alg».proof.Proof.Gen.ReferenceIdeal.Read
import proofs.«419562_j71597104825034_2_alg».proof.Proof.Tokens
import Idealize.ShloMosaic.Lib.ValueIdx
import Idealize.ShloMosaic.PureOps.Ideal.Laws

noncomputable section

open scoped BigOperators

namespace Cert.PatchMean

open Idealize.ShloMosaic Idealize.ShloMosaic.ValueIdx Cert.ReferenceIdeal Cert.ReferenceIdeal.Gen Cert.ReferenceIdeal.Read

/-- The gather's dimension numbers: rows of the table taken whole, one start index per token. -/
abbrev rowGather := gather_S256x128_S16x16384x1_S16x16384x128_2_0_n_n_0_2_1128

/-- The row a gathered element comes from: the start index read signed and clamped, that is the token. -/
theorem gather_rowCoord (idx : IVec S16x16384x1 32) (b : Fin 16) (t : Fin 16384) (d : Fin 128) :
    (rowGather.operandIdx (ix3 b t d) idx (0 : Fin 2)).val = (tok (idx (ix3 b t (0 : Fin 1)))).val := by
  show rowGather.start (ix3 b t d) idx 0 + rowGather.batchCoord (ix3 b t d) 0 + rowGather.offCoord (ix3 b t d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ rowGather.startIndexMap from List.mem_singleton.mpr rfl)]
  have hsi : rowGather.siIdx (ix3 b t d) ⟨List.idxOf (0 : Fin 2) rowGather.startIndexMap,
      List.idxOf_lt_length_iff.2 (List.mem_singleton.mpr rfl)⟩ = ix3 b t (0 : Fin 1) := by
    funext c; refine Fin.ext ?_
    match c with
    | ⟨0, _⟩ => rfl
    | ⟨1, _⟩ => rfl
    | ⟨2, _⟩ => rfl
  rw [hsi]
  rfl

/-- The column a gathered element comes from: the result's own column. -/
theorem gather_colCoord (idx : IVec S16x16384x1 32) (b : Fin 16) (t : Fin 16384) (d : Fin 128) :
    (rowGather.operandIdx (ix3 b t d) idx (1 : Fin 2)).val = d.val := by
  show rowGather.start (ix3 b t d) idx 1 + rowGather.batchCoord (ix3 b t d) 1 + rowGather.offCoord (ix3 b t d) 1 = _
  rw [GatherDims.batchCoord_eq_zero _ _ _ List.not_mem_nil]
  unfold GatherDims.start
  rw [dif_neg (show ¬ (1 : Fin 2) ∈ rowGather.startIndexMap from by decide)]
  unfold GatherDims.offCoord
  rw [dif_pos (show (1 : Fin 2) ∈ rowGather.sKept from by decide)]
  simp only [Nat.zero_add]
  have hax : ∀ (h : List.idxOf (1 : Fin 2) rowGather.sKept < rowGather.offsetDims.length),
      rowGather.offsetDims[List.idxOf (1 : Fin 2) rowGather.sKept]'h = (2 : Fin 3) := by decide
  exact congrArg (fun q : Fin 3 => (ix3 b t d q).val) (hax _)

/-- THE GATHER READ AT (b, t, d): column d of the row the start index at (b, t) names. -/
theorem gather_row {α : Type} (be : S256x128.Idx → α) (idx : IVec S16x16384x1 32) (b : Fin 16) (t : Fin 16384)
    (d : Fin 128) : Host.gather rowGather be idx (ix3 b t d) = be (ix2 (tok (idx (ix3 b t (0 : Fin 1)))) d) := by
  unfold Host.gather
  congr 1
  funext a
  refine Fin.ext ?_
  match a with
  | ⟨0, _⟩ => exact gather_rowCoord idx b t d
  | ⟨1, _⟩ => exact gather_colCoord idx b t d

/-- The reference's divisor is the real number 8. -/
theorem ofBits_eight : Ideal.ofBits .f32 0x41000000#32 = ((8 : ℝ) : EReal) := by
  simp [Ideal.ofBits, Ideal.ieee, -EReal.coe_mul]; norm_num

/-- Over a non-negative word the reference's index normalisation (add 256 where negative) is the identity. -/
theorem normalised_eq (x : IVec S16x16384 32) (hx : ∀ i, 0 ≤ (x i).toInt) (b : Fin 16) (t : Fin 16384) :
    val_main_v5 (F := Ideal) x (ix3 b t (0 : Fin 1)) = x (ix2 b t) := by
  rw [val_main_v5_apply, val_main_v4_apply, val_main_v1_apply, val_main_v0_apply, val_main_c_apply]
  have hi : idx_main_v5 (ix3 b t (0 : Fin 1)) = ix2 b t := by
    funext a; match a with | ⟨0, _⟩ => rfl | ⟨1, _⟩ => rfl
  rw [hi]
  have hz : (0#32 : BitVec 32).toInt = 0 := by decide
  have hn : ¬ IntOp.cmpi .slt (x (ix2 b t)) 0#32 = 1#1 := by
    rw [IntOp.cmpi_slt, hz]; have := hx (ix2 b t); omega
  rw [eq_zero_of_ne_one hn, select_zero]

/-- THE REFERENCE'S RESULT, over non-negative token words, is the span mean. -/
theorem reference_eq (x : IVec S16x16384 32) (be : FVec Ideal S256x128 .f32) (hx : ∀ i, 0 ≤ (x i).toInt) :
    val_main_v10 (F := Ideal) x be = spanMean x be := by
  funext i
  obtain ⟨b, s, d, rfl⟩ : ∃ (b : Fin 16) (s : Fin 2048) (d : Fin 128), i = ix3 b s d := ⟨i 0, i 1, i 2, eq_ix3 i⟩
  rw [val_main_v10_apply, val_main_v8_apply, val_main_v9_apply, val_main_cst_1_apply, val_main_cst_apply]
  have hterm : ∀ k : Fin 8, val_main_v7 (F := Ideal) x be (idx_main_v8 (ix3 b s d) k)
      = be (ix2 (spanTok x b s k) d) := by
    intro k
    have hk := k.isLt; have hs := s.isLt; have hd := d.isLt
    rw [val_main_v7_apply]
    have hi : idx_main_v7 (idx_main_v8 (ix3 b s d) k)
        = ix3 b (⟨s.val * 8 + k.val, by omega⟩ : Fin 16384) d := by
      have hb := b.isLt
      funext a; refine Fin.ext ?_
      match a with
      | ⟨0, _⟩ => show (((b.val * 2048 + s.val) * 8 + k.val) * 128 + d.val) / 2097152 = b.val; omega
      | ⟨1, _⟩ => show (((b.val * 2048 + s.val) * 8 + k.val) * 128 + d.val) / 128 % 16384 = s.val * 8 + k.val; omega
      | ⟨2, _⟩ => show (((b.val * 2048 + s.val) * 8 + k.val) * 128 + d.val) % 128 = d.val; omega
    rw [hi]
    unfold val_main_v6
    rw [gather_row, normalised_eq x hx]
    rfl
  simp only [hterm]
  show Ideal.div (Ideal.ofBits .f32 0x00000000#32 + ∑ k : Fin 8, be (ix2 (spanTok x b s k) d)) (Ideal.ofBits .f32 0x41000000#32) = _
  rw [Ideal.ofBits_zero_f32, ofBits_eight, Ideal.div_coe (by norm_num : (8 : ℝ) ≠ 0)]
  rfl

end Cert.PatchMean

end
-- ==== Proof.RowDot.lean ====
/-
  The kernel's matrix product and the two regroupings around it, each read at an index.

  The body lays its counts [16, 512, 256] out as 8192 rows of 256, multiplies by the scaled table [256, 128] into a
  zero accumulator, and regroups the 8192 result rows as [16, 512, 128]. Over the extended reals the product at
  (r, d) is the plain sum over the 256 table rows k of counts(r, k) * table(k, d): the contraction has one axis, so
  its index is one coordinate, and the operands' indices at (r, d) and k are (r, k) and (k, d), axis by axis.
  Row r = 512 b + s of either regrouping is (b, s): both arrays are row-major.
-/
import proofs.«419562_j71597104825034_2_alg».proof.Proof.Gen.KernelIdeal.Frame
import proofs.«419562_j71597104825034_2_alg».proof.Proof.Tokens
import Idealize.ShloMosaic.Lib.ValueIdx
import Idealize.ShloMosaic.Lib.ValueLayout
import Idealize.ShloMosaic.Lib.Pipeline.Value
import Idealize.ShloMosaic.PureOps.Ideal.Laws

noncomputable section
open scoped BigOperators
namespace Cert.PatchMean
open Idealize.ShloMosaic Idealize.ShloMosaic.ValueIdx Cert.KernelIdeal Cert.KernelIdeal.Gen

/-- The product's dimension numbers: contract the counts' row index against the table's row axis. -/
abbrev rowDot := dot_S8192x256_S256x128_S8192x128_1_0_0_1_n_n

/-- The left operand's row is the result's row. -/
theorem rowDot_lhs_0 (j : S8192x128.Idx) (k : rowDot.contr.Idx) : (rowDot.lhsIdx j k (0 : Fin 2)).val = (j 0).val := by
  unfold DotDims.lhsIdx
  rw [dif_neg (show ¬ (0 : Fin 2) ∈ rowDot.lhsBatch from List.not_mem_nil),
    dif_pos (show (0 : Fin 2) ∈ rowDot.lhsNonContracting from List.mem_singleton.mpr rfl)]
  simp only [Fin.val_cast]
  have key : ∀ (p q : Nat) (hp : p < S8192x128.rank) (hq : q < S8192x128.rank), p = q → (j ⟨p, hp⟩).val = (j ⟨q, hq⟩).val :=
    fun p q hp hq h => by subst h; rfl
  exact key _ _ _ _ (by decide)

/-- The left operand's column is the contraction coordinate. -/
theorem rowDot_lhs_1 (j : S8192x128.Idx) (k : rowDot.contr.Idx) :
    (rowDot.lhsIdx j k (1 : Fin 2)).val = (k ⟨0, by decide⟩).val :=
  rowDot.lhsIdx_val_of_single (cl := (1 : Fin 2)) rfl j k

/-- The right operand's row is the contraction coordinate. -/
theorem rowDot_rhs_0 (j : S8192x128.Idx) (k : rowDot.contr.Idx) :
    (rowDot.rhsIdx j k (0 : Fin 2)).val = (k ⟨0, by decide⟩).val :=
  rowDot.rhsIdx_val_of_single (cr := (0 : Fin 2)) rfl j k

/-- The right operand's column is the result's column. -/
theorem rowDot_rhs_1 (j : S8192x128.Idx) (k : rowDot.contr.Idx) : (rowDot.rhsIdx j k (1 : Fin 2)).val = (j 1).val := by
  unfold DotDims.rhsIdx
  rw [dif_neg (show ¬ (1 : Fin 2) ∈ rowDot.rhsBatch from List.not_mem_nil),
    dif_pos (show (1 : Fin 2) ∈ rowDot.rhsNonContracting from List.mem_singleton.mpr rfl)]
  simp only [Fin.val_cast]
  have key : ∀ (p q : Nat) (hp : p < S8192x128.rank) (hq : q < S8192x128.rank), p = q → (j ⟨p, hp⟩).val = (j ⟨q, hq⟩).val :=
    fun p q hp hq h => by subst h; rfl
  exact key _ _ _ _ (by decide)

/-- The product into a zero accumulator, at (r, d): the sum over the 256 rows of the table. -/
theorem rowDot_apply (L : FVec Ideal S8192x256 .bf16) (R : FVec Ideal S256x128 .bf16) (r : Fin 8192) (d : Fin 128) :
    matmul rowDot none L R (constant S8192x128 .f32 0x00000000#32) (ix2 r d) = ∑ k : Fin 256, L (ix2 r k) * R (ix2 k d) := by
  simp only [matmul]
  rw [Ideal.matmul_constant_zero_apply]
  rw [← Equiv.sum_comp (contrEquiv1 rowDot 256 rfl rfl).symm]
  refine Finset.sum_congr rfl fun k _ => ?_
  have hl : rowDot.lhsIdx (ix2 r d) ((contrEquiv1 rowDot 256 rfl rfl).symm k) = ix2 r k := by
    funext a; refine Fin.ext ?_
    match a with
    | ⟨0, _⟩ => exact rowDot_lhs_0 _ _
    | ⟨1, _⟩ => exact (rowDot_lhs_1 _ _).trans (contrEquiv1_symm_val rowDot 256 rfl rfl k)
  have hr : rowDot.rhsIdx (ix2 r d) ((contrEquiv1 rowDot 256 rfl rfl).symm k) = ix2 k d := by
    funext a; refine Fin.ext ?_
    match a with
    | ⟨0, _⟩ => exact (rowDot_rhs_0 _ _).trans (contrEquiv1_symm_val rowDot 256 rfl rfl k)
    | ⟨1, _⟩ => exact rowDot_rhs_1 _ _
  rw [hl, hr]

/-- The result block regrouped from rows: (b, s, d) is row 512 b + s. -/
theorem unrows_apply {α : Type} (M : S8192x128.Idx → α) (b : Fin 16) (s : Fin 512) (d : Fin 128) :
    shapeCast S16x512x128 M shapeCasts_S8192x128_S16x512x128 (ix3 b s d)
      = M (ix2 (⟨b.val * 512 + s.val, by have := b.isLt; have := s.isLt; omega⟩ : Fin 8192) d) := by
  refine shapeCast_apply M _ _ _ ?_
  rw [Shape.rowMajor_val_two, Shape.rowMajor_val_three]
  rfl

/-- The counts laid out as rows: row 512 b + s is (b, s). -/
theorem rows_apply {α : Type} (C : S16x512x256.Idx → α) (b : Fin 16) (s : Fin 512) (k : Fin 256) :
    shapeCast S8192x256 C shapeCasts_S16x512x256_S8192x256
        (ix2 (⟨b.val * 512 + s.val, by have := b.isLt; have := s.isLt; omega⟩ : Fin 8192) k)
      = C (ix3 b s k) := by
  refine shapeCast_apply C _ _ _ ?_
  rw [Shape.rowMajor_val_two, Shape.rowMajor_val_three]
  rfl

end Cert.PatchMean
end
-- ==== Proof.CountRows.lean ====
/-
  What the kernel body leaves in its output block, at one index, as a function of the two blocks it loads.

  The body loads eight slabs of token words (slab j holds position j of every span of the block), and for each
  builds a one-hot plane: the word is clipped into [0, 255], converted to a number, and compared for equality with
  the row numbers 0..255; the test's bit, widened and converted, is the number 1 or 0. A plane at (b, s, k) is
  therefore 1 exactly where the word at (b, s) has token k (`plane_apply`; the changes of float format in between are
  the identity on extended reals). The eight planes are added up from zero: the counts. The table is scaled by the
  exact binary fraction 1/8, the counts are multiplied into it, and the result regrouped (RowDot.lean).
  So the block at (b, s, d) is the count-weighted sum over the rows (`block_apply`), and over a REAL table it is the
  mean over the eight staged tokens of column d of each token's row (`block_mean`, by Tokens.lean's law).
-/
import proofs.«419562_j71597104825034_2_alg».proof.Proof.RowDot

noncomputable section
open scoped BigOperators
namespace Cert.PatchMean
open Idealize.ShloMosaic Idealize.ShloMosaic.ValueIdx Cert.KernelIdeal Cert.KernelIdeal.Gen

/-- The row numbers 0..255 as the kernel makes them (an iota converted), at column k: the number k. -/
theorem rowNumbers_apply (k : Fin 256) :
    (k0_pay1 (F := Ideal)) (ix3 (0 : Fin 1) (0 : Fin 1) k) = ((((BitVec.ofNat 32 k.val).toInt : Int) : ℝ) : EReal) := by
  unfold k0_pay1
  show FloatOps.sitofp (F := Ideal) .bf16 (iota .tc S1x1x256 32 [2] iota_S1x1x256_d2_w32 (ix3 (0 : Fin 1) (0 : Fin 1) k)) = _
  rw [iota_single_apply]
  rfl

/-- ONE ONE-HOT PLANE: for a slab `v` of token words, the plane at (b, s, k) is 1 where the word at (b, s) has
    token k, else 0. -/
theorem plane_apply (v : Vec Ideal S1x16x512 .i32) (b : Fin 16) (s : Fin 512) (k : Fin 256) :
    (truncf .bf16 (sitofp .f32 (extui 32 (cmpf .oeq
        (broadcastTo S16x512x256 (shapeCast S16x512x1 (sitofp .bf16 (minsi (broadcast S16x512 255#32)
          (maxsi (broadcast S16x512 0#32) (shapeCast S16x512 v shapeCasts_S1x16x512_S16x512))))
          shapeCasts_S16x512_S16x512x1) broadcasts_S16x512x1_S16x512x256)
        (broadcastTo S16x512x256 (k0_pay1 (F := Ideal)) broadcasts_S1x1x256_S16x512x256)) natLt_1_32))
      bitsLt_bf16_f32 : FVec Ideal S16x512x256 .bf16) (ix3 b s k)
      = if tok (v (ix3 (0 : Fin 1) b s)) = k then 1 else 0 := by
  rw [truncf_apply, sitofp_apply, extui_apply, cmpf_apply]
  have hL : broadcastTo S16x512x256 (shapeCast S16x512x1 (sitofp (F := Ideal) .bf16 (minsi (broadcast S16x512 255#32)
          (maxsi (broadcast S16x512 0#32) (shapeCast S16x512 v shapeCasts_S1x16x512_S16x512))))
          shapeCasts_S16x512_S16x512x1) broadcasts_S16x512x1_S16x512x256 (ix3 b s k)
      = ((((IntOp.minsi 255#32 (IntOp.maxsi 0#32 (v (ix3 (0 : Fin 1) b s)))).toInt : Int) : ℝ) : EReal) := by
    refine (broadcastTo_apply _ _ (ix3 b s k) (ix3 b s (0 : Fin 1)) (fun a => ?_)).trans ?_
    · match a with
      | ⟨0, _⟩ => rfl
      | ⟨1, _⟩ => rfl
      | ⟨2, _⟩ => rfl
    refine (shapeCast_apply _ _ (ix3 b s (0 : Fin 1)) (ix2 b s) ?_).trans ?_
    · rw [Shape.rowMajor_val_two, Shape.rowMajor_val_three]
      show b.val * 512 + s.val = (b.val * 512 + s.val) * 1 + 0
      omega
    rw [sitofp_apply]
    show FloatOps.sitofp (F := Ideal) .bf16 (IntOp.minsi 255#32 (IntOp.maxsi 0#32
      (shapeCast S16x512 v shapeCasts_S1x16x512_S16x512 (ix2 b s)))) = _
    rw [shapeCast_1ab_ab_apply]
    rfl
  have hR : broadcastTo S16x512x256 (k0_pay1 (F := Ideal)) broadcasts_S1x1x256_S16x512x256 (ix3 b s k)
      = ((((BitVec.ofNat 32 k.val).toInt : Int) : ℝ) : EReal) := by
    refine (broadcastTo_apply _ _ (ix3 b s k) (ix3 (0 : Fin 1) (0 : Fin 1) k) (fun a => ?_)).trans (rowNumbers_apply k)
    match a with
    | ⟨0, _⟩ => rfl
    | ⟨1, _⟩ => rfl
    | ⟨2, _⟩ => rfl
  rw [hL, hR]
  exact hot_tok (v (ix3 (0 : Fin 1) b s)) k

/-- Position j of the staged token block: the load through the j-th unit slab, read at (0, b, s). -/
theorem slab_apply (x0 : Vec Ideal S8x16x512 .i32) (j : Nat) (hj : j < 8)
    (inb : ∀ a, (![j, 0, 0] : Fin 3 → Nat) a + S1x16x512.size a ≤ S8x16x512.size a) (b : Fin 16) (s : Fin 512) :
    View.ld x0 (Rect.unit (s := S8x16x512) ![j, 0, 0] S1x16x512.size inb) (ix3 (0 : Fin 1) b s)
      = x0 (ix3 (⟨j, hj⟩ : Fin 8) b s) := by
  show x0 _ = x0 _
  congr 1
  funext a; refine Fin.ext ?_
  match a with
  | ⟨0, _⟩ => show j + 1 * 0 = j; omega
  | ⟨1, _⟩ => show 0 + 1 * b.val = b.val; omega
  | ⟨2, _⟩ => show 0 + 1 * s.val = s.val; omega

/-- Two spellings of the all-zero offsets of a whole-buffer access. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The literals of the body: the counts start from zero, the table is scaled by one eighth (an exact binary fraction). -/
theorem ofBits_bf16_zero : Ideal.ofBits .bf16 0x0000#16 = 0 := by simp [Ideal.ofBits, Ideal.ieee]
theorem ofBits_eighth : Ideal.ofBits .f32 0x3E000000#32 = (((1 / 8 : ℝ)) : EReal) := by
  simp [Ideal.ofBits, Ideal.ieee, -EReal.coe_mul]; norm_num

/-- THE BLOCK AT (b, s, d): the sum over the table's rows k of (how many of the eight staged tokens at (b, s) name
    row k) times the scaled table entry (k, d). -/
theorem block_apply (x0 : Vec Ideal S8x16x512 .i32) (x1 : Vec Ideal S256x128 .f32) (b : Fin 16) (s : Fin 512) (d : Fin 128) :
    out0_2 x0 x1 (ix3 b s d) = ∑ k : Fin 256,
      ((((((((((0 : EReal) + (if tok (x0 (ix3 (0 : Fin 8) b s)) = k then 1 else 0))
        + (if tok (x0 (ix3 (1 : Fin 8) b s)) = k then 1 else 0)) + (if tok (x0 (ix3 (2 : Fin 8) b s)) = k then 1 else 0))
        + (if tok (x0 (ix3 (3 : Fin 8) b s)) = k then 1 else 0)) + (if tok (x0 (ix3 (4 : Fin 8) b s)) = k then 1 else 0))
        + (if tok (x0 (ix3 (5 : Fin 8) b s)) = k then 1 else 0)) + (if tok (x0 (ix3 (6 : Fin 8) b s)) = k then 1 else 0))
        + (if tok (x0 (ix3 (7 : Fin 8) b s)) = k then 1 else 0))
        * (x1 (ix2 k d) * (((1 / 8 : ℝ)) : EReal))) := by
  unfold out0_2
  rw [View.canon_unit_zero zeros3, View.ld_unit_zero (S := S256x128) zeros2]
  unfold k0_pay8
  rw [unrows_apply, rowDot_apply]
  simp only [rows_apply]
  unfold k0_pay5 k0_pay2 k0_pay3 k0_pay4 k0_pay6 k0_pay7
  simp only [addf_apply, plane_apply]
  rw [slab_apply x0 0 (by decide) _ b s, slab_apply x0 1 (by decide) _ b s, slab_apply x0 2 (by decide) _ b s,
    slab_apply x0 3 (by decide) _ b s, slab_apply x0 4 (by decide) _ b s, slab_apply x0 5 (by decide) _ b s,
    slab_apply x0 6 (by decide) _ b s, slab_apply x0 7 (by decide) _ b s]
  simp only [broadcast_apply, truncf_apply, mulf_apply, Ideal.ofBits_def, ofBits_bf16_zero, ofBits_eighth]
  rfl

/-- THE BLOCK AS A MEAN: over a real table the count-weighted sum is the mean, over the eight staged tokens at
    (b, s), of column d of each token's row. -/
theorem block_mean (x0 : Vec Ideal S8x16x512 .i32) (x1 : Vec Ideal S256x128 .f32)
    (hre : ∀ i, ∃ r : ℝ, x1 i = (r : EReal)) (b : Fin 16) (s : Fin 512) (d : Fin 128) :
    out0_2 x0 x1 (ix3 b s d)
      = ((0 : EReal) + ∑ j : Fin 8, x1 (ix2 (tok (x0 (ix3 j b s))) d)) * (((1 / 8 : ℝ)) : EReal) := by
  choose r hr using hre
  rw [block_apply]
  simp only [hr]
  exact count_dot (fun k => r (ix2 k d)) (fun j => tok (x0 (ix3 j b s)))

end Cert.PatchMean
end
-- ==== Proof.Spans.lean ====
/-
  From the blocks to the array: the kernel's result array is the span mean of its two arguments.

  Before the launch the host regroups the tokens [16, 16384] as [16, 2048, 8] and moves the position-in-span axis
  to the front: the staged array [8, 16, 2048] holds at (j, b, p) token 8 p + j of sequence b (`staged_apply`).
  The grid has four points; point t stages the token block of spans 512 t .. 512 t + 511 (all 8 positions, all 16
  sequences), the whole table, and writes back spans 512 t .. 512 t + 511 of the result (`idx_facts`: the index
  maps, decided over the four points). A block's element sits at block index * block size + its coordinate, so
  slab j of point t's token block at (b, s) is token 8 (512 t + s) + j of sequence b (`tokblock_apply`) and its
  table block is the table (`tableblock_apply`). With CountRows.lean's mean of the staged tokens' rows this makes
  what point t writes back block t of the span mean (`flushed_eq`); the four blocks tile the result array (span
  row r is in the block of point r / 512), so the array ends at the span mean (`final`, `run`).
  The table's entries are taken real: the mean of rows needs it (Tokens.lean).
-/
import proofs.«419562_j71597104825034_2_alg».proof.Proof.Gen.KernelIdeal.Value
import proofs.«419562_j71597104825034_2_alg».proof.Proof.CountRows
import Idealize.ShloMosaic.Lib.StableHlo.Run

set_option maxRecDepth 16384
noncomputable section
open scoped BigOperators
namespace Cert.PatchMean
open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The token words and the table as launched, on core c. -/
abbrev toks (c : Dev nD) : IVec S16x16384 32 := m ((c : Thread nD τ).loc main_arg0)
abbrev table (c : Dev nD) : FVec Ideal S256x128 .f32 := m ((c : Thread nD τ).loc main_arg1)

/-- The three index maps over the grid: the token block moves along the span axis with the point, the table block
    stays, the result block moves along the span axis with the point. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0)

/-- The array the token window stages is the host's regrouping of the tokens, position-in-span axis first. -/
theorem staged_eq (c : Dev nD) : (V m c main_v1 : S8x16x2048.Idx → BitVec 32)
    = transpose S8x16x2048 [2, 0, 1] (shapeCast S16x2048x8 (toks m c) shapeCasts_S16x16384_S16x2048x8)
        transposes_S16x2048x8_S8x16x2048_2_0_1 := by
  dsimp only [Gen.V, Gen.hostOps0]
  after_results
  rfl

/-- It holds at (j, b, p) token 8 p + j of sequence b. -/
theorem staged_apply (c : Dev nD) (j : Fin 8) (b : Fin 16) (p : Fin 2048) :
    (V m c main_v1 : S8x16x2048.Idx → BitVec 32) (ix3 j b p)
      = toks m c (ix2 b (⟨p.val * 8 + j.val, by have := p.isLt; have := j.isLt; omega⟩ : Fin 16384)) := by
  rw [staged_eq]
  refine (transpose_apply _ _ _ (ix3 j b p) (ix3 b p j) (fun a => ?_)).trans ?_
  · match a with
    | ⟨0, _⟩ => rfl
    | ⟨1, _⟩ => rfl
    | ⟨2, _⟩ => rfl
  refine shapeCast_apply _ _ (ix3 b p j) _ ?_
  rw [Shape.rowMajor_val_two, Shape.rowMajor_val_three]
  show b.val * 16384 + (p.val * 8 + j.val) = (b.val * 2048 + p.val) * 8 + j.val
  omega

/-- The grid has four points. -/
theorem point_lt (t : Fin cfg0.N) : t.val < 4 := by
  have h := t.isLt
  have hN : cfg0.N = 4 := N_0
  omega

/-- The staged token block of point t: slab j at (b, s) is position j of span 512 t + s of sequence b. -/
theorem tokblock_apply (c : Dev nD) (t : Fin cfg0.N) (j : Fin 8) (b : Fin 16) (s : Fin 512) :
    iblk m c 0 t (ix3 j b s)
      = toks m c (ix2 b (⟨(t.val * 512 + s.val) * 8 + j.val, by
          have := point_lt t; have := s.isLt; have := j.isLt; omega⟩ : Fin 16384)) := by
  obtain ⟨e0, e1, e2, -⟩ := idx_facts t
  have ht := point_lt t
  show (V m c main_v1 : S8x16x2048.Idx → BitVec 32) (((cfg0.win 0).blk t).view.emb (ix3 j b s)) = _
  have hemb : ((cfg0.win 0).blk t).view.emb (ix3 j b s)
      = ix3 j b (⟨t.val * 512 + s.val, by have := s.isLt; omega⟩ : Fin 2048) := by
    funext a; apply Fin.ext
    match a with
    | ⟨0, _⟩ => show win0_0.index t (0 : Fin 3) * 8 + 1 * j.val = j.val; omega
    | ⟨1, _⟩ => show win0_0.index t (1 : Fin 3) * 16 + 1 * b.val = b.val; omega
    | ⟨2, _⟩ => show win0_0.index t (2 : Fin 3) * 512 + 1 * s.val = t.val * 512 + s.val; omega
  rw [hemb, staged_apply]

/-- The staged table block of every point is the whole table. -/
theorem tableblock_apply (c : Dev nD) (t : Fin cfg0.N) (k : Fin 256) (d : Fin 128) :
    iblk m c 1 t (ix2 k d) = table m c (ix2 k d) := by
  obtain ⟨-, -, -, e3, e4, -⟩ := idx_facts t
  show (V m c main_arg1 : S256x128.Idx → EReal) (((cfg0.win 1).blk t).view.emb (ix2 k d)) = _
  rw [V_main_arg1]
  have hemb : ((cfg0.win 1).blk t).view.emb (ix2 k d) = ix2 k d := by
    funext a; apply Fin.ext
    match a with
    | ⟨0, _⟩ => show win0_1.index t (0 : Fin 2) * 256 + 1 * k.val = k.val; omega
    | ⟨1, _⟩ => show win0_1.index t (1 : Fin 2) * 128 + 1 * d.val = d.val; omega
  rw [hemb]

/-- WHAT POINT t WRITES BACK is block t of the span mean of the argument arrays. -/
theorem flushed_eq (hre : ∀ c i, ∃ r : ℝ, table m c i = (r : EReal)) (c : Dev nD) (t : Fin cfg0.N) :
    (dats m 0 c).flushed 2 t = ((cfg0.win 2).blk t).view.read (Elt Ideal) (spanMean (toks m c) (table m c)) := by
  rw [Cert.KernelIdeal.Value.flushed2]
  obtain ⟨-, -, -, -, -, e5, e6, e7⟩ := idx_facts t
  have ht := point_lt t
  funext y
  obtain ⟨b, s, d, rfl⟩ : ∃ (b : Fin 16) (s : Fin 512) (d : Fin 128), y = ix3 b s d := ⟨y 0, y 1, y 2, eq_ix3 y⟩
  show out0_2 (iblk m c 0 t) (iblk m c 1 t) (ix3 b s d)
    = spanMean (toks m c) (table m c) (((cfg0.win 2).blk t).view.emb (ix3 b s d))
  have hblk1 : ∀ i, ∃ r : ℝ, iblk m c 1 t i = (r : EReal) := by
    intro i
    obtain ⟨k, d', rfl⟩ : ∃ (k : Fin 256) (d' : Fin 128), i = ix2 k d' := ⟨i 0, i 1, eq_ix2 i⟩
    rw [tableblock_apply]; exact hre c _
  rw [block_mean (iblk m c 0 t) (iblk m c 1 t) hblk1 b s d]
  have hemb : ((cfg0.win 2).blk t).view.emb (ix3 b s d)
      = ix3 b (⟨t.val * 512 + s.val, by have := s.isLt; omega⟩ : Fin 2048) d := by
    funext a; apply Fin.ext
    match a with
    | ⟨0, _⟩ => show win0_2.index t (0 : Fin 3) * 16 + 1 * b.val = b.val; omega
    | ⟨1, _⟩ => show win0_2.index t (1 : Fin 3) * 512 + 1 * s.val = t.val * 512 + s.val; omega
    | ⟨2, _⟩ => show win0_2.index t (2 : Fin 3) * 128 + 1 * d.val = d.val; omega
  rw [hemb]
  unfold spanMean spanTok
  refine congrArg (· * _) (congrArg (0 + ·) (Finset.sum_congr rfl fun j _ => ?_))
  rw [tableblock_apply, tokblock_apply]

/-- An index of the result array is in point t's block iff each coordinate is in the block's range on its axis. -/
theorem mem_blk (t : Fin cfg0.N) (i : S16x2048x128.Idx) :
    i ∈ ((cfg0.win 2).blk t).view.set ↔ ∀ a : Fin 3, win0_2.index t a * S16x512x128.size a ≤ (i a).val
      ∧ (i a).val < win0_2.index t a * S16x512x128.size a + S16x512x128.size a := by
  show i ∈ ((View.whole main_v2).slice (win0_2.rect t)).set ↔ _
  rw [View.set_slice_whole, Rect.mem_set_unit]
  exact Iff.rfl

/-- The four blocks cover the result array: span row r lies in the block of point r / 512. -/
theorem cover (i : S16x2048x128.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 128 := (i 2).isLt
  have hN : cfg0.N = 4 := N_0
  refine ⟨⟨(i 1).val / 512, by omega⟩, flush0_2 _, ?_⟩
  rw [mem_blk]
  obtain ⟨-, -, -, -, -, e5, e6, e7⟩ := idx_facts (⟨(i 1).val / 512, by omega⟩ : Fin cfg0.N)
  have e6' : win0_2.index (⟨(i 1).val / 512, by omega⟩ : Fin cfg0.N) (1 : Fin 3) = (i 1).val / 512 := e6
  intro a
  match a with
  | ⟨0, _⟩ =>
    show win0_2.index _ (0 : Fin 3) * 16 ≤ (i 0).val ∧ (i 0).val < win0_2.index _ (0 : Fin 3) * 16 + 16
    omega
  | ⟨1, _⟩ =>
    show win0_2.index _ (1 : Fin 3) * 512 ≤ (i 1).val ∧ (i 1).val < win0_2.index _ (1 : Fin 3) * 512 + 512
    omega
  | ⟨2, _⟩ =>
    show win0_2.index _ (2 : Fin 3) * 128 ≤ (i 2).val ∧ (i 2).val < win0_2.index _ (2 : Fin 3) * 128 + 128
    omega

/-- THE RESULT ARRAY after the run is the span mean of the argument arrays. -/
theorem final (hre : ∀ c i, ∃ r : ℝ, table m c i = (r : EReal)) (c : Dev nD) :
    (dats m 0 c).arrAt 2 cfg0.N = spanMean (toks m c) (table m c) :=
  (dats m 0 c).arrAt_eq_of_cover 2 (spanMean (toks m c) (table m c)) (fun t _ => flushed_eq m hre c t) cover

/-- The kernel's run, read: over a real table the result array ends at the span mean, the arguments unchanged. -/
theorem run (hre : ∀ c i, ∃ r : ℝ, table m c i = (r : EReal)) :
    θ_run defs (onTc (τ := τ) (main (F := Ideal))) ⟨m, fun _ => 0, ρ⟩ fun r => ∀ c : Dev nD,
      r.2.mem ((c : Thread nD τ).loc main_v2) = spanMean (toks m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hre c), (h c).2⟩)
    (Cert.KernelIdeal.Value.run_blocks m ρ)

end Cert.PatchMean
end
-- ==== Proof.lean ====
/-
  The kernel computes, for each of 16 sequences of 16384 byte tokens, the mean embedding of every span of 8
  consecutive tokens: result (b, s, d) = (1/8) * sum over j < 8 of table[token(b, 8 s + j), d], a [16, 2048, 128]
  array from a [256, 128] table. The reference looks the rows up and averages. The kernel never looks a row up:
  it counts, per span and per table row, how many of the span's tokens name the row, and multiplies the counts
  [*, 256] into the table scaled by 1/8 on the matrix unit. A token word is read as a row by clamping it into
  [0, 255]; the reference first wraps a negative word around (adds 256), which the kernel does not, so the two
  agree on non-negative words: the precondition asks that every token word be non-negative, and that the table's
  entries be finite (the counting form of the mean is a rearrangement of finite sums: Tokens.lean).

  The modules: Tokens.lean (the token of a word, the span mean, the law joining the two forms), Domain.lean (the
  precondition read back), LookupMean.lean (the reference's result is the span mean), RowDot.lean and CountRows.lean
  (the kernel body's block at an index), Spans.lean (the kernel's result array is the span mean). Here: the claims.
  The frames of the two kernel programs and the reference's run are the generated ones; `preserves` has no entry.
-/
import proofs.«419562_j71597104825034_2_alg».proof.Defs
import proofs.«419562_j71597104825034_2_alg».proof.Proof.Gen.Kernel
import proofs.«419562_j71597104825034_2_alg».proof.Proof.Gen.Kernel.Skeleton
import proofs.«419562_j71597104825034_2_alg».proof.Proof.Gen.Kernel.Launch
import proofs.«419562_j71597104825034_2_alg».proof.Proof.Gen.Kernel.Points
import proofs.«419562_j71597104825034_2_alg».proof.Proof.Gen.Kernel.Frame
import proofs.«419562_j71597104825034_2_alg».proof.Proof.Gen.KernelIdeal
import proofs.«419562_j71597104825034_2_alg».proof.Proof.Gen.KernelIdeal.Skeleton
import proofs.«419562_j71597104825034_2_alg».proof.Proof.Gen.KernelIdeal.Launch
import proofs.«419562_j71597104825034_2_alg».proof.Proof.Gen.KernelIdeal.Points
import proofs.«419562_j71597104825034_2_alg».proof.Proof.Gen.KernelIdeal.Frame
import proofs.«419562_j71597104825034_2_alg».proof.Proof.Gen.ReferenceIdeal
import proofs.«419562_j71597104825034_2_alg».proof.Proof.Gen.Pre_finite_inputs
import proofs.«419562_j71597104825034_2_alg».proof.Proof.Gen.KernelIdeal.Value
import proofs.«419562_j71597104825034_2_alg».proof.Proof.Gen.ReferenceIdeal.Run
import proofs.«419562_j71597104825034_2_alg».proof.Proof.Gen.ReferenceIdeal.Read
import proofs.«419562_j71597104825034_2_alg».proof.Proof.Domain
import proofs.«419562_j71597104825034_2_alg».proof.Proof.LookupMean
import proofs.«419562_j71597104825034_2_alg».proof.Proof.Spans
import Idealize.ShloMosaic.Adequacy
import Idealize.ShloMosaic.Init

noncomputable section

namespace Cert.Proof

open Idealize.ShloMosaic Idealize.ShloMosaic.TcCoe Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the span mean of the (agreeing) arguments: the kernel by Spans.lean, over the
    table's entries real; the reference by LookupMean.lean, over the token words non-negative; both facts are the
    precondition's (Domain.lean). -/
theorem algebraic : Cert.algebraic_KernelIdeal_ReferenceIdeal := by
  intro m ρ m' ρ' hpre hagree
  have hdom := fun c => Cert.PatchMean.domain_of_pre _ _ (hpre c)
  refine ⟨fun c => Cert.PatchMean.spanMean (Cert.PatchMean.toks m c) (Cert.PatchMean.table m c),
    Cert.PatchMean.run m ρ (fun c => (hdom c).1), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.PatchMean.reference_eq _ _ (hdom c).2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
